-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1000000 : Shape := ⟨1, ![1000000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_v13 : IVec S_ 1) (main_v15 : IVec S1000000 1) (main_c_5 : IVec S_ 32) : IVec S_ 1 :=
  let main_v16 : IVec S1000000 32 := broadcastInDim S1000000 ![] bcast_S_S1000000 main_c_5
  let main_v17 : IVec S1000000 1 := cmpi .slt main_arg1 main_v16
  let main_v18 : IVec S1000000 1 := andi main_v15 main_v17
  let main_c_6 : IVec S_ 1 := constantI S_ 1 1#1
  let main_v19 : IVec S_ 1 := (fun x v => Host.reduce IntOp.andi x v reducesTo_S1000000_S_d0 h_S_) main_v18 main_c_6
  let main_v20 : IVec S_ 1 := andi main_v13 main_v19
  main_v20

def fn {F : FTy → Type} [FloatOps F] (main_arg0 : FVec F S100000x256 .f32) (main_arg1 : IVec S1000000 32) (main_arg2 : IVec S1000000 32) (main_arg3 : FVec F S256x64 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 4294867296#32
  let main_v14 : IVec S1000000 32 := broadcastInDim S1000000 ![] bcast_S_S1000000 main_c_4
  let main_v15 : IVec S1000000 1 := cmpi .sge main_arg1 main_v14
  let main_c_5 : IVec S_ 32 := constantI S_ 32 100000#32
  fn_part1 (F := F) main_arg1 main_v13 main_v15 main_c_5
-- ==== Kernel.lean ====
abbrev S100000x256 : Shape := ⟨2, ![100000, 256]⟩
abbrev S1000000 : Shape := ⟨1, ![1000000]⟩
abbrev S256x64 : Shape := ⟨2, ![256, 64]⟩
abbrev S64 : Shape := ⟨1, ![64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1 : Shape := ⟨1, ![1]⟩
abbrev S1x1 : Shape := ⟨2, ![1, 1]⟩
abbrev S1000000x64 : Shape := ⟨2, ![1000000, 64]⟩
abbrev S1x64 : Shape := ⟨2, ![1, 64]⟩

abbrev nBuf : Space → Nat
  | .hbm => 61
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S1000000, .i32⟩
  | .hbm, ⟨2, _⟩ => ⟨S1000000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S1000000, .f32⟩
  | .hbm, ⟨7, _⟩ => ⟨S_, .f32⟩
  | .hbm, ⟨8, _⟩ => ⟨S100000, .f32⟩
  | .hbm, ⟨9, _⟩ => ⟨S1000000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1, .i32⟩
  | .hbm, ⟨41, _⟩ => ⟨S_, .i32⟩
  | .hbm, ⟨42, _⟩ => ⟨S1000000x1, .i32⟩
  | .hbm, ⟨43, _⟩ => ⟨S1000000x1, .i1⟩
  | .hbm, ⟨44, _⟩ => ⟨S1x1, .i32⟩
  | .hbm, ⟨45, _⟩ => ⟨S1000000x1, .i32⟩
  | .hbm, ⟨46, _⟩ => ⟨S1000000x1, .i1⟩
  | .hbm, ⟨47, _⟩ => ⟨S1000000x1, .i1⟩
  | .hbm, ⟨48, _⟩ => ⟨S_, .i1⟩
  | .hbm, ⟨49, _⟩ => ⟨S1000000, .i1⟩
  | .hbm, ⟨50, _⟩ => ⟨S1000000x64, .f32⟩
  | .hbm, ⟨51, _⟩ => ⟨S1000000x64, .i1⟩
  | .hbm, ⟨52, _⟩ => ⟨S_, .f32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S100000x64, .f32⟩
  | .hbm, ⟨57, _⟩ => ⟨S1000000x1, .i32⟩
  | .hbm, ⟨58, _⟩ => ⟨S100000x64, .f32⟩
  | .hbm, ⟨59, _⟩ => ⟨S1x64, .f32⟩
  | .hbm, ⟨60, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v16 : Ref sig .tc := ⟨.hbm, 54, rfl⟩
abbrev main_cst_6 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1000000x1_S1000000_n_0_0_1_wf : ScatterDims.WF S100000 S1000000x1 S1000000 [] [0] [0] 1
  dot_S5000x256_S256x64_S5000x64_1_0_0_1_n_n_wf : DotDims.WF S5000x256 S256x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1000000 : Shape := ⟨1, ![1000000]⟩
abbrev S256x64 : Shape := ⟨2, ![256, 64]⟩
abbrev S64 : Shape := ⟨1, ![64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S100000x64 : Shape := ⟨2, ![100000, 64]⟩
abbrev S1000000x64 : Shape := ⟨2, ![1000000, 64]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1000000, .i32⟩
  | .hbm, ⟨2, _⟩ => ⟨S1000000, .i32⟩
  | .hbm, ⟨3, _⟩ => ⟨S256x64, .f32⟩
  | .hbm, ⟨4, _⟩ => ⟨S64, .f32⟩
  | .hbm, ⟨5, _⟩ => ⟨S_, .f32⟩
  | .hbm, ⟨6, _⟩ => ⟨S1000000, .f32⟩
  | .hbm, ⟨7, _⟩ => ⟨S_, .f32⟩
  | .hbm, ⟨8, _⟩ => ⟨S100000, .f32⟩
  | .hbm, ⟨9, _⟩ => ⟨S1000000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x256, .f32⟩
  | .hbm, ⟨28, _⟩ => ⟨S100000x256, .f32⟩
  | .hbm, ⟨29, _⟩ => ⟨S100000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1000000x1_S1000000_n_0_0_1_wf : ScatterDims.WF S100000 S1000000x1 S1000000 [] [0] [0] 1
  dot_S100000x256_S256x64_S100000x64_1_0_0_1_n_n_wf : DotDims.WF S100000x256 S256x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.TakeRows.lean ====
/-
  The edge source indices, and the row mask of the masked row gather.

  The precondition ends in an all-reduce by "and" of (-100000 ≤ src) and (src < 100000), signed, over the array of
  edge source indices. Read back at one edge it bounds the index: -100000 ≤ src[e] < 100000.

  The row gather wraps a negative index once (src + 100000 where src < 0), and afterwards replaces by a fill value
  every row whose wrapped index lies outside [0, 99999]. Under the bound the wrapped index is src + 100000 in
  [0, 99999] when src is negative (the sum of two words of that size does not wrap around), and src in [0, 99999]
  otherwise. So both comparisons hold at every edge, their conjunction reduced over the unit axis is 1, the mask
  broadcast along the 64 features is 1 everywhere, and the masked gather is the gather.
-/
import proofs.«416148_j72619307041223_1_alg».proof.KernelIdeal
import proofs.«416148_j72619307041223_1_alg».proof.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

namespace Cert.TakeRows

open Idealize.ShloMosaic

/-! ## Words -/

/-- The word 4294867296 read signed is -100000. -/
theorem toInt_lo : (4294867296#32 : BitVec 32).toInt = -100000 := by decide

theorem toInt_hi : (100000#32 : BitVec 32).toInt = 100000 := by decide

theorem toInt_zero : (0#32 : BitVec 32).toInt = 0 := by decide

theorem toInt_last : (99999#32 : BitVec 32).toInt = 99999 := by decide

/-- A signed "≥" that came out 1 orders the signed values. -/
theorem sge_one {a b : BitVec 32} : IntOp.cmpi .sge a b = 1#1 ↔ b.toInt ≤ a.toInt := by
  show BitVec.ofBool (b.sle a) = 1#1 ↔ _
  rw [StableHlo.Predicate.ofBool_eq_one_iff, BitVec.sle_iff_toInt_le]

theorem sle_one {a b : BitVec 32} : IntOp.cmpi .sle a b = 1#1 ↔ a.toInt ≤ b.toInt := by
  show BitVec.ofBool (a.sle b) = 1#1 ↔ _
  rw [StableHlo.Predicate.ofBool_eq_one_iff, BitVec.sle_iff_toInt_le]

theorem slt_one {a b : BitVec 32} : IntOp.cmpi .slt a b = 1#1 ↔ a.toInt < b.toInt := by
  show BitVec.ofBool (a.slt b) = 1#1 ↔ _
  rw [StableHlo.Predicate.ofBool_eq_one_iff, BitVec.slt_iff_toInt_lt]

/-- The wrapped index: a negative index moved up by the table's length. -/
def wrapWord (w : BitVec 32) : BitVec 32 :=
  Scalar.select (IntOp.cmpi .slt w 0#32) (IntOp.addi w 100000#32) w

/-- For an index in [-100000, 100000) the wrapped index lies in [0, 99999]. -/
theorem wrapWord_range (w : BitVec 32) (hw : -100000 ≤ w.toInt ∧ w.toInt < 100000) :
    0 ≤ (wrapWord w).toInt ∧ (wrapWord w).toInt ≤ 99999 := by
  unfold wrapWord
  by_cases hneg : w.toInt < 0
  · have hc : IntOp.cmpi .slt w 0#32 = 1#1 := slt_one.2 (by rw [toInt_zero]; exact hneg)
    rw [hc, ValueIdx.select_one]
    have hadd : (IntOp.addi w 100000#32).toInt = w.toInt + 100000 := by
      show (w + 100000#32).toInt = _
      rw [BitVec.toInt_add, toInt_hi]
      exact Int.bmod_eq_of_le_mul_two (by omega) (by omega)
    rw [hadd]
    omega
  · have hc : IntOp.cmpi .slt w 0#32 = 0#1 :=
      ValueIdx.eq_zero_of_ne_one (fun h1 => hneg (by have := slt_one.1 h1; rwa [toInt_zero] at this))
    rw [hc, ValueIdx.select_zero]
    omega

/-- Both range tests of the wrapped index hold. -/
theorem wrapWord_tests (w : BitVec 32) (hw : -100000 ≤ w.toInt ∧ w.toInt < 100000) :
    IntOp.andi (IntOp.cmpi .sge (wrapWord w) 0#32) (IntOp.cmpi .sle (wrapWord w) 99999#32) = 1#1 := by
  obtain ⟨h0, h1⟩ := wrapWord_range w hw
  refine IntOp.andi_eq_one.2 ⟨sge_one.2 ?_, sle_one.2 ?_⟩
  · rw [toInt_zero]; exact h0
  · rw [toInt_last]; exact h1

/-! ## A reduction by "and" of an array of ones -/

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- A reduction by "and", from 1, of an array that is 1 everywhere is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

/-! ## The bound read out of the precondition -/

section Range

instance : Subsingleton Cert.Pre_finite_inputs.S_.Idx := ⟨fun a b => funext fun d => d.elim0⟩

/-- The precondition bounds every edge's source index: -100000 ≤ src[e] < 100000, signed. -/
theorem src_in_range [Cert.Pre_finite_inputs.Facts] {F : FTy → Type} [FloatOps F]
    (a0 : FVec F Cert.Pre_finite_inputs.S100000x256 .f32) (a1 a2 : IVec Cert.Pre_finite_inputs.S1000000 32)
    (a3 : FVec F Cert.Pre_finite_inputs.S256x64 .f32) (a4 : FVec F Cert.Pre_finite_inputs.S64 .f32)
    (h : Cert.Pre_finite_inputs.fn (F := F) a0 a1 a2 a3 a4 = fun _ => 1#1) :
    ∀ e : Fin 1000000, -100000 ≤ (a1 (ValueIdx.ix1 e)).toInt ∧ (a1 (ValueIdx.ix1 e)).toInt < 100000 := by
  intro e
  have h0 := congrFun h ValueIdx.ix0
  dsimp only [Cert.Pre_finite_inputs.fn, Cert.Pre_finite_inputs.fn_part1] at h0
  -- the last conjunct is the all-reduce of the two range tests
  have hred := (IntOp.andi_eq_one.1 h0).2
  have hel := Host.reduce_andi_all _ _ _ _ _ hred (ValueIdx.ix1 e)
  obtain ⟨hge, hlt⟩ := IntOp.andi_eq_one.1 hel
  have hge' : IntOp.cmpi .sge (a1 (ValueIdx.ix1 e)) 4294867296#32 = 1#1 := hge
  have hlt' : IntOp.cmpi .slt (a1 (ValueIdx.ix1 e)) 100000#32 = 1#1 := hlt
  rw [sge_one, toInt_lo] at hge'
  rw [slt_one, toInt_hi] at hlt'
  exact ⟨hge', hlt'⟩

end Range

/-! ## The row mask -/

section Mask

open Cert.KernelIdeal Cert.KernelIdeal.Facts₀ Cert.KernelIdeal.Facts

variable [Cert.KernelIdeal.Facts]

/-- The wrapped indices as a column: a negative index moved up by the table's length. -/
def wrapIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- The row mask: 1 on the rows whose wrapped index lies in [0, 99999], along the 64 features. -/
def rowMask (src : IVec S1000000 32) : IVec S1000000x64 1 :=
  broadcastInDim S1000000x64 ![0] bcast_S1000000_S1000000x64_0
    (Host.reduce IntOp.andi
      (andi (cmpi .sge (wrapIdx src) (broadcastInDim S1000000x1 ![] bcast_S_S1000000x1 (constantI S_ 32 0#32)))
            (cmpi .sle (wrapIdx src) (broadcastInDim S1000000x1 ![0, 1] bcast_S1x1_S1000000x1_0_1
              (broadcastInDim S1x1 ![1] bcast_S1_S1x1_1 (constantI S1 32 99999#32)))))
      (constantI S_ 1 1#1) reducesTo_S1000000x1_S1000000_d1 h_S_)

/-- The column of wrapped indices read at a row is the wrapped word of some edge's index. -/
theorem wrapIdx_apply (src : IVec S1000000 32) (i : S1000000x1.Idx) : ∃ k : S1000000.Idx, wrapIdx src i = wrapWord (src k) :=
  ⟨_, rfl⟩

/-- Under the bound every row passes both range tests, so the mask is 1 everywhere. -/
theorem rowMask_all (src : IVec S1000000 32)
    (hsrc : ∀ e : Fin 1000000, -100000 ≤ (src (ValueIdx.ix1 e)).toInt ∧ (src (ValueIdx.ix1 e)).toInt < 100000) :
    rowMask src = fun _ => 1#1 := by
  funext j
  have hk : ∀ k : S1000000.Idx, -100000 ≤ (src k).toInt ∧ (src k).toInt < 100000 := fun k => by
    rw [ValueIdx.eq_ix1 k]; exact hsrc (k 0)
  refine reduce_andi_ones _ _ _ _ rfl (fun i => ?_) _
  obtain ⟨k, ek⟩ := wrapIdx_apply src i
  show IntOp.andi (IntOp.cmpi .sge (wrapIdx src i) 0#32) (IntOp.cmpi .sle (wrapIdx src i) 99999#32) = 1#1
  rw [ek]
  exact wrapWord_tests _ (hk k)

/-- Under the bound the masked gather is the gather: no row takes the fill value. -/
theorem take_rows {α : Type} (src : IVec S1000000 32)
    (hsrc : ∀ e : Fin 1000000, -100000 ≤ (src (ValueIdx.ix1 e)).toInt ∧ (src (ValueIdx.ix1 e)).toInt < 100000)
    (g fill : S1000000x64.Idx → α) :
    select (rowMask src) g fill = g := by
  funext j
  rw [ValueIdx.select_apply, rowMask_all src hsrc, ValueIdx.select_one]

end Mask

end Cert.TakeRows

end
-- ==== Proof.KernelFolds.lean ====
/-
  What the kernel program's host operations leave in the buffers the two tiled regions read.

  Before the first region the host computes, from an index array (the edges' sources, or their destinations), the
  degree of every node as a scatter-add of ones, clips it below at one, raises it to the power -1/2 and lays the
  result out as a column: `degCol`. The first region reads the features, the weights and the column of the
  sources; the second the aggregated features, the column of the destinations and the bias laid out as a row.
  Between the regions the host gathers the rows of the first region's result at the wrapped source indices,
  masks the rows whose index is out of range, and scatter-adds the rows at the destinations.
  Every buffer a later stretch does not write keeps its contents, so each argument is read back to the launch memory.
-/
import proofs.«416148_j72619307041223_1_alg».proof.Proof.Gen.KernelIdeal.Frame
import proofs.«416148_j72619307041223_1_alg».proof.Proof.TakeRows
import Idealize.ShloMosaic.Lib.StableHlo.Run

set_option maxRecDepth 16384

noncomputable section

namespace Cert.KernelIdeal.Folds

open Idealize.ShloMosaic Idealize.ShloMosaic.TcCoe Idealize.SL.Sem Idealize.ShloMosaic.StableHlo
open Cert.KernelIdeal Cert.KernelIdeal.Gen Cert.TakeRows

variable {F : FTy → Type} [FloatOps F]

/-- The degree scale of every node, as a column: the count of the edges whose index is the node, clipped below at
    one, to the power -1/2. -/
def degCol (idx : IVec S1000000 32) : FVec F S100000x1 .f32 :=
  shapeCast S100000x1
    (Host.powf
      (maximumf (broadcastInDim S100000 ![] bcast_S_S100000 (constant S_ .f32 0x3F800000#32))
        (Host.scatterAdd scatter_S100000_S1000000x1_S1000000_n_0_0_1
          (broadcastInDim S100000 ![] bcast_S_S100000 (constant S_ .f32 0x00000000#32))
          (broadcastInDim S1000000x1 ![0] bcast_S1000000_S1000000x1_0 idx)
          (broadcastInDim S1000000 ![] bcast_S_S1000000 (constant S_ .f32 0x3F800000#32))))
      (broadcastInDim S100000 ![] bcast_S_S100000 (constant S_ .f32 0xBF000000#32)))
    shapeCasts_S100000_S100000x1

/-- The rows of `h` gathered at the wrapped source indices, the out-of-range rows masked by the fill value. -/
def takeRows (h : FVec F S100000x64 .f32) (src : IVec S1000000 32) : FVec F S1000000x64 .f32 :=
  select (rowMask src)
    (Host.gather gather_S100000x64_S1000000x1_S1000000x64_1_0_n_n_0_1_164 h (wrapIdx src))
    (broadcastInDim S1000000x64 ![] bcast_S_S1000000x64 (constant S_ .f32 0x7FC00000#32))

/-- The gathered rows summed into their destination nodes. -/
def aggregate (rows : FVec F S1000000x64 .f32) (dst : IVec S1000000 32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 dst)
    rows

variable (m : (ℓ : Loc nD τ sig) → Buf (Elt F) ℓ) (ρ : Dev nD → PrngReg)

/-- A buffer that no operation of a stretch writes keeps its contents across the stretch. -/
macro "kept_across " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## At the first region's entry -/

theorem entry0_scale (c : Dev nD) :
    W5 m ρ c (Proc.devRef .tc main_v11) = degCol (F := F) (m ((c : Thread nD τ).loc main_arg1)) := by
  show StableHlo.after hostOps0_4 (W4 m ρ c) (Proc.devRef .tc main_v11) = _
  after_results
  rfl

theorem entry0_scale_in (c : Dev nD) :
    W5 m ρ c (Proc.devRef .tc main_v14) = degCol (F := F) (m ((c : Thread nD τ).loc main_arg2)) := by
  show StableHlo.after hostOps0_4 (W4 m ρ c) (Proc.devRef .tc main_v14) = _
  after_results
  rfl

/-- An argument of @main is as launched at the first region's entry. -/
theorem entry0_arg (b : Ref sig .tc) (hb : b = main_arg0 ∨ b = main_arg1 ∨ b = main_arg2 ∨ b = main_arg3 ∨ b = main_arg4) (c : Dev nD) :
    W5 m ρ c (Proc.devRef .tc b) = m ((c : Thread nD τ).loc b) := by
  have h4 : W5 m ρ c (Proc.devRef .tc b) = W4 m ρ c (Proc.devRef .tc b) := by
    rcases hb with rfl | rfl | rfl | rfl | rfl <;> kept_across hostOps0_4
  have h3 : W4 m ρ c (Proc.devRef .tc b) = W3 m ρ c (Proc.devRef .tc b) := by
    rcases hb with rfl | rfl | rfl | rfl | rfl <;> kept_across hostOps0_3
  have h2 : W3 m ρ c (Proc.devRef .tc b) = W2 m ρ c (Proc.devRef .tc b) := by
    rcases hb with rfl | rfl | rfl | rfl | rfl <;> kept_across hostOps0_2
  have h1 : W2 m ρ c (Proc.devRef .tc b) = W1 m ρ c (Proc.devRef .tc b) := by
    rcases hb with rfl | rfl | rfl | rfl | rfl <;> kept_across hostOps0_1
  have h0 : W1 m ρ c (Proc.devRef .tc b) = W0 m ρ c (Proc.devRef .tc b) := by
    rcases hb with rfl | rfl | rfl | rfl | rfl <;> kept_across hostOps0
  exact h4.trans (h3.trans (h2.trans (h1.trans h0)))

/-! ## At the first region's exit -/

/-- The first region's result array is what its write-backs leave. -/
theorem exit0_result (c : Dev nD) :
    W6 m ρ c (Proc.devRef .tc main_v15) = (dat0 (V5 m ρ) c).arrAt 3 cfg0.N := W6_arr m ρ c 3

/-- The first region writes none of these. -/
theorem exit0_kept (b : Ref sig .tc) (hb : b = main_arg1 ∨ b = main_arg2 ∨ b = main_arg4 ∨ b = main_v14) (c : Dev nD) :
    W6 m ρ c (Proc.devRef .tc b) = W5 m ρ c (Proc.devRef .tc b) := by
  rcases hb with rfl | rfl | rfl | rfl <;> exact W6_of_ne m ρ c _ (by decide)

/-! ## Between the regions -/

/-- A value stored under a buffer's type and read back at the value's type is the value. -/
theorem ofBuf_toBuf {sig' : RefSig} {Val : EltTy → Type} {T : BufTy} (x : StableHlo.TRef sig' T) (v : T.Contents Val) :
    x.ofBuf (x.toBuf v) = v := by
  obtain ⟨r, h, h2, h3⟩ := x
  subst h
  rfl

/-- The sources' buffer holds an array of 1000000 words: reading it at that type changes nothing. -/
theorem ofBuf_src (U : Valuation τ sig (Elt F)) :
    ((TRef.of main_arg1 : TRef sig ⟨S1000000, .i32⟩).ofBuf (U (Proc.devRef .tc main_arg1)) : IVec S1000000 32)
      = U (Proc.devRef .tc main_arg1) := rfl

/-- The first region's result buffer holds a 100000 × 64 array: reading it at that type changes nothing. -/
theorem ofBuf_table (U : Valuation τ sig (Elt F)) :
    ((TRef.of main_v15 : TRef sig ⟨S100000x64, .f32⟩).ofBuf (U (Proc.devRef .tc main_v15)) : FVec F S100000x64 .f32)
      = U (Proc.devRef .tc main_v15) := rfl

/-- The gathered rows' buffer holds a 1000000 × 64 array: storing one at that type changes nothing. -/
theorem toBuf_rows (v : FVec F S1000000x64 .f32) :
    (TRef.of main_v16 : TRef sig ⟨S1000000x64, .f32⟩).toBuf (Val := Elt F) v = v := rfl

set_option maxHeartbeats 1000000 in
/-- The masked row gather of the first region's result at the edges' sources. -/
theorem between_rows (c : Dev nD) :
    W7 m ρ c (Proc.devRef .tc main_v16)
      = takeRows (F := F) (W6 m ρ c (Proc.devRef .tc main_v15)) (W6 m ρ c (Proc.devRef .tc main_arg1)) := by
  show StableHlo.after hostOps1 (W6 m ρ c) (Proc.devRef .tc main_v16) = _
  generalize W6 m ρ c = U
  unfold takeRows rowMask wrapIdx
  after_results_simp
  simp only [ofBuf_toBuf, ofBuf_src, ofBuf_table, toBuf_rows]

/-- The row gather writes none of these. -/
theorem between_kept (b : Ref sig .tc) (hb : b = main_arg2 ∨ b = main_arg4 ∨ b = main_v14) (c : Dev nD) :
    W7 m ρ c (Proc.devRef .tc b) = W6 m ρ c (Proc.devRef .tc b) := by
  rcases hb with rfl | rfl | rfl <;> kept_across hostOps1

/-! ## At the second region's entry -/

/-- The aggregated features: the gathered rows summed into their destinations. -/
theorem entry1_agg (c : Dev nD) :
    W8 m ρ c (Proc.devRef .tc main_v19)
      = aggregate (F := F) (W7 m ρ c (Proc.devRef .tc main_v16)) (W7 m ρ c (Proc.devRef .tc main_arg2)) := by
  show StableHlo.after hostOps1_1 (W7 m ρ c) (Proc.devRef .tc main_v19) = _
  generalize W7 m ρ c = U
  after_results
  rfl

/-- The bias laid out as a row. -/
theorem entry1_bias (c : Dev nD) :
    W8 m ρ c (Proc.devRef .tc main_v20)
      = shapeCast S1x64 (W7 m ρ c (Proc.devRef .tc main_arg4) : FVec F S64 .f32) shapeCasts_S64_S1x64 := by
  show StableHlo.after hostOps1_1 (W7 m ρ c) (Proc.devRef .tc main_v20) = _
  generalize W7 m ρ c = U
  after_results
  rfl

/-- The destinations' scale column is not written after the first region's entry. -/
theorem entry1_scale (c : Dev nD) :
    W8 m ρ c (Proc.devRef .tc main_v14) = W7 m ρ c (Proc.devRef .tc main_v14) := by
  kept_across hostOps1_1

/-! ## At the return -/

/-- The program's result array is what the second region's write-backs leave. -/
theorem exit1_result (c : Dev nD) :
    W9 m ρ c (Proc.devRef .tc main_v21) = (dat1 (V8 m ρ) c).arrAt 3 cfg1.N := W9_arr m ρ c 3

end Cert.KernelIdeal.Folds

end
-- ==== Proof.Spec.lean ====
/-
  The two dense stages of the graph convolution, as whole-array functions over the extended reals.

  `transform x s w` is the scaled feature matrix times the weights: entry (r, j) is the sum over the 256 input
  features k of (x r k · s r) · w k j, where s is the column of per-node scales (the out-degree to the power -1/2).
  `normalize a s b` is the affine epilogue: entry (r, j) is a r j · s r + b j, with s the column of in-degree scales
  and b the bias kept as a 1 × 64 row.
  Both the tiled kernels and the reference's whole-array operations compute exactly these entries: no law of the
  extended reals is needed to join them, only the same sum written over the same index set.
-/
import Idealize.ShloMosaic.PureOps.Ideal
import Idealize.ShloMosaic.Lib.ValueIdx

noncomputable section

open scoped BigOperators

namespace Cert.Gcn

open Idealize.ShloMosaic Idealize.ShloMosaic.ValueIdx

/-- Node features: 100000 nodes by 256 input features. -/
abbrev SX : Shape := ⟨2, ![100000, 256]⟩
/-- Weights: 256 input features by 64 output features. -/
abbrev SW : Shape := ⟨2, ![256, 64]⟩
/-- A per-node column. -/
abbrev SCol : Shape := ⟨2, ![100000, 1]⟩
/-- Node outputs: 100000 nodes by 64 output features. -/
abbrev SH : Shape := ⟨2, ![100000, 64]⟩
/-- The bias as a row. -/
abbrev SB : Shape := ⟨2, ![1, 64]⟩

/-- Entry (r, j) of the scaled features times the weights. -/
def transformAt (x : FVec Ideal SX .f32) (s : FVec Ideal SCol .f32) (w : FVec Ideal SW .f32) (r : Fin 100000) (j : Fin 64) :
    EReal :=
  ∑ k : Fin 256, (x (ix2 r k) * s (ix2 r (0 : Fin 1))) * w (ix2 k j)

/-- The scaled features times the weights, as one array. -/
def transform (x : FVec Ideal SX .f32) (s : FVec Ideal SCol .f32) (w : FVec Ideal SW .f32) : FVec Ideal SH .f32 :=
  fun i => transformAt x s w (i 0) (i 1)

theorem transform_apply (x : FVec Ideal SX .f32) (s : FVec Ideal SCol .f32) (w : FVec Ideal SW .f32) (r : Fin 100000) (j : Fin 64) :
    transform x s w (ix2 r j) = transformAt x s w r j := rfl

/-- Entry (r, j) of the affine epilogue. -/
def normalizeAt (a : FVec Ideal SH .f32) (s : FVec Ideal SCol .f32) (b : FVec Ideal SB .f32) (r : Fin 100000) (j : Fin 64) :
    EReal :=
  a (ix2 r j) * s (ix2 r (0 : Fin 1)) + b (ix2 (0 : Fin 1) j)

/-- The affine epilogue, as one array. -/
def normalize (a : FVec Ideal SH .f32) (s : FVec Ideal SCol .f32) (b : FVec Ideal SB .f32) : FVec Ideal SH .f32 :=
  fun i => normalizeAt a s b (i 0) (i 1)

theorem normalize_apply (a : FVec Ideal SH .f32) (s : FVec Ideal SCol .f32) (b : FVec Ideal SB .f32) (r : Fin 100000) (j : Fin 64) :
    normalize a s b (ix2 r j) = normalizeAt a s b r j := rfl

end Cert.Gcn

end
-- ==== Proof.LibColumn.lean ====
/-
  A column kept as a [a, 1] array: the three readings a row reduction with `keepdims` needs.
  A vector of `a` entries cast to [a, 1] reads at (r, 0) its entry r; a [a, 1] column broadcast along a second axis of
  extent b reads at (r, k) the column's entry (r, 0); and the source index of a reduction of a [a, b] array over its
  second axis, at result position r with reduced coordinate k, is (r, k).
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- An `[a]` array cast to `[a, 1]` reads, at `(r, u)`, the operand at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array cast to `[a]` reads, at `r`, the operand at `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column broadcast to `[a, b]` reads, at `(r, k)`, the column at `(r, 0)`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- Reducing an `[a, b]` array over its second axis: the source index over result position `r` with reduced
    coordinate `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

end Cert.LibColumn
-- ==== Proof.TransformValue.lean ====
/-
  The first dense stage of the graph convolution, read off the tiled kernel: the output array after the
  twenty grid points is the scaled feature matrix times the weights.

  A grid point t holds rows 5000·t … 5000·t + 4999 of the features x (256 columns), the same rows of the
  scale column s, and all of the weights w (256 × 64). Its body multiplies each row of the feature block by
  that row's scale, and contracts the 256 features against the weights into a zero accumulator; changing the
  float format of an operand does nothing to an extended real. So entry (p, q) of the block it writes back is
  ∑ k, (x (5000·t + p, k) · s (5000·t + p, 0)) · w (k, q): entry (5000·t + p, q) of the whole product, the
  same sum over the same index set. The twenty blocks of 5000 rows tile the 100000 rows — row r lies in the
  block of the point r / 5000 — so after all the write-backs the array holds the whole product.
-/
import proofs.«416148_j72619307041223_1_alg».proof.Proof.Gen.KernelIdeal.Frame
import proofs.«416148_j72619307041223_1_alg».proof.Proof.Spec
import proofs.«416148_j72619307041223_1_alg».proof.Proof.LibColumn
import Idealize.ShloMosaic.Lib.Pipeline.Value
import Idealize.ShloMosaic.Lib.ValueIdx
import Idealize.ShloMosaic.PureOps.Ideal.Laws

set_option maxRecDepth 16384

noncomputable section

namespace Cert.KernelIdeal.TransformValue

open Idealize.ShloMosaic Idealize.ShloMosaic.TcCoe Idealize.SL.Sem Cert.KernelIdeal
open Idealize.ShloMosaic.Pipeline (Dat)
open Idealize.ShloMosaic.ValueIdx
open scoped BigOperators

/-! ## The contraction's operand indices, axis by axis -/

theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_feature (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_feature (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_column (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The scaled block at (p, k): the feature times the row's scale. -/
theorem scaled_apply (x0 : FVec Ideal S5000x256 .f32) (x1 : FVec Ideal S5000x1 .f32) (p : Fin 5000) (k : Fin 256) :
    mulf (F := Ideal) (φ := .f32) x0 (broadcastTo S5000x256 (shapeCast S5000x1 x1 Gen.shapeCasts_S5000x1_S5000x1) Gen.broadcasts_S5000x1_S5000x256) (ix2 p k)
      = x0 (ix2 p k) * x1 (ix2 p (0 : Fin 1)) := by
  rw [mulf_apply, shapeCast_self]
  exact congrArg (x0 (ix2 p k) * ·) (Cert.LibColumn.broadcastTo_a1_ab_apply x1 Gen.broadcasts_S5000x1_S5000x256 p k)

/-- One block's product at (p, q): the sum over the 256 features of the scaled feature times the weight. -/
theorem pay_apply (x0 : Vec Ideal S5000x256 .f32) (x1 : Vec Ideal S5000x1 .f32) (x6 : Vec Ideal S256x64 .f32) (p : Fin 5000) (q : Fin 64) :
    Gen.k0_pay1 (F := Ideal) x0 x1 x6 (ix2 p q) = ∑ k : Fin 256, (x0 (ix2 p k) * x1 (ix2 p (0 : Fin 1))) * x6 (ix2 k q) := by
  unfold Gen.k0_pay1
  refine (Ideal.matmul_constant_zero_apply dot_S5000x256_S256x64_S5000x64_1_0_0_1_n_n none _ _ (ix2 p q)).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k := funext fun a => Fin.ext (by
    match a with
    | ⟨0, _⟩ => exact lhs_row _ _
    | ⟨1, _⟩ => exact (lhs_feature _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q := funext fun a => Fin.ext (by
    match a with
    | ⟨0, _⟩ => exact (rhs_feature _ _).trans hk
    | ⟨1, _⟩ => exact rhs_column _ _)
  rw [el, er, truncf_apply, truncf_apply]
  exact congrArg (· * x6 (ix2 k q)) (scaled_apply x0 x1 p k)

/-! ## One block of the product is the block of the whole product -/

/-- If the three loaded blocks hold, at the entries the product at (p, q) reads, the arrays' entries that the
    whole product at (r, q) reads, the block's product at (p, q) is the whole product at (r, q). -/
theorem block_apply (X : FVec Ideal Cert.Gcn.SX .f32) (S : FVec Ideal Cert.Gcn.SCol .f32) (W : FVec Ideal Cert.Gcn.SW .f32)
    (x0 : Vec Ideal S5000x256 .f32) (x1 : Vec Ideal S5000x1 .f32) (x6 : Vec Ideal S256x64 .f32)
    (p : Fin 5000) (q : Fin 64) (r : Fin 100000)
    (h0 : ∀ k : Fin 256, x0 (ix2 p k) = X (ix2 r k)) (h1 : x1 (ix2 p (0 : Fin 1)) = S (ix2 r (0 : Fin 1)))
    (h6 : ∀ k : Fin 256, x6 (ix2 k q) = W (ix2 k q)) :
    Gen.k0_pay1 (F := Ideal) x0 x1 x6 (ix2 p q) = Cert.Gcn.transform X S W (ix2 r q) := by
  rw [pay_apply, Cert.Gcn.transform_apply]
  unfold Cert.Gcn.transformAt
  exact Finset.sum_congr rfl fun k _ => by rw [h0 k, h1, h6 k]

/-! ## What a grid point writes back -/

theorem zero_offsets : (![0, 0] : Fin 2 → Nat) = fun _ => 0 :=
  funext fun a => match a with | ⟨0, _⟩ => rfl | ⟨1, _⟩ => rfl

/-- The index maps over the 20 grid points: the features and the scale column move with the output's
    rows, the weights stay, and point t is at block row t. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 ∧ t.val ≤ 19 :=
  (by decide +kernel : ∀ t : Fin grid0.N, _)

variable (V : (c : Dev nD) → (b : Ref sig .tc) → Buf (Elt Ideal) ((c : Thread nD τ).loc b))

theorem flushed_eq (c : Dev nD) (t : Fin cfg0.N) :
    (Gen.dat0 (F := Ideal) V c).flushed 3 t
      = ((cfg0.win 3).blk t).view.read (Elt Ideal) (Cert.Gcn.transform (V c main_arg0) (V c main_v11) (V c main_arg3)) := by
  show (cfg0.win 3).cut (grid0.coords t) ((Gen.dat0 V c).after 3 t) = _
  rw [Gen.after0_3]
  unfold Gen.out0_3
  rw [View.canon_unit_zero zero_offsets]
  simp only [View.ld_unit_zero (S := S5000x256) zero_offsets, View.ld_unit_zero (S := S5000x1) zero_offsets, View.ld_unit_zero (S := S256x64) zero_offsets]
  obtain ⟨e00, e01, e10, e11, e20, e21, e30, e31, ht⟩ := block_indices t
  funext j
  have hp : (j 0).val < 5000 := (j 0).isLt
  have hq : (j 1).val < 64 := (j 1).isLt
  have hr : win0_3.index t (0 : Fin 2) * 5000 + 1 * (j 0).val < 100000 := by omega
  have ej : (cfg0.win 3).xinj (grid0.coords t) j = ix2 (⟨(j 0).val, hp⟩ : Fin 5000) (⟨(j 1).val, hq⟩ : Fin 64) :=
    funext fun a => match a with | ⟨0, _⟩ => rfl | ⟨1, _⟩ => rfl
  have eo : ((cfg0.win 3).blk t).view.emb j
      = ix2 (⟨win0_3.index t (0 : Fin 2) * 5000 + 1 * (j 0).val, hr⟩ : Fin 100000) (⟨(j 1).val, hq⟩ : Fin 64) :=
    funext fun a => Fin.ext (match a with
      | ⟨0, _⟩ => rfl
      | ⟨1, _⟩ => (show win0_3.index t (1 : Fin 2) * 64 + 1 * (j 1).val = (j 1).val by omega))
  show Gen.k0_pay1 (F := Ideal) (Gen.iblk0 V c 0 t) (Gen.iblk0 V c 2 t) (Gen.iblk0 V c 1 t) ((cfg0.win 3).xinj (grid0.coords t) j)
    = Cert.Gcn.transform (V c main_arg0) (V c main_v11) (V c main_arg3) (((cfg0.win 3).blk t).view.emb j)
  rw [ej, eo]
  refine block_apply (V c main_arg0) (V c main_v11) (V c main_arg3) (Gen.iblk0 V c 0 t) (Gen.iblk0 V c 2 t) (Gen.iblk0 V c 1 t)
    ⟨(j 0).val, hp⟩ ⟨(j 1).val, hq⟩ ⟨win0_3.index t (0 : Fin 2) * 5000 + 1 * (j 0).val, hr⟩ (fun k => ?_) ?_ (fun k => ?_)
  · show V c main_arg0 (((cfg0.win 0).blk t).view.emb (ix2 (⟨(j 0).val, hp⟩ : Fin 5000) k)) = _
    exact congrArg (V c main_arg0) (funext fun a => Fin.ext (match a with
      | ⟨0, _⟩ => (show win0_0.index t (0 : Fin 2) * 5000 + 1 * (j 0).val = win0_3.index t (0 : Fin 2) * 5000 + 1 * (j 0).val by omega)
      | ⟨1, _⟩ => (show win0_0.index t (1 : Fin 2) * 256 + 1 * k.val = k.val by omega)))
  · show V c main_v11 (((cfg0.win 2).blk t).view.emb (ix2 (⟨(j 0).val, hp⟩ : Fin 5000) (0 : Fin 1))) = _
    exact congrArg (V c main_v11) (funext fun a => Fin.ext (match a with
      | ⟨0, _⟩ => (show win0_2.index t (0 : Fin 2) * 5000 + 1 * (j 0).val = win0_3.index t (0 : Fin 2) * 5000 + 1 * (j 0).val by omega)
      | ⟨1, _⟩ => (show win0_2.index t (1 : Fin 2) * 1 + 1 * 0 = 0 by omega)))
  · show V c main_arg3 (((cfg0.win 1).blk t).view.emb (ix2 k (⟨(j 1).val, hq⟩ : Fin 64))) = _
    exact congrArg (V c main_arg3) (funext fun a => Fin.ext (match a with
      | ⟨0, _⟩ => (show win0_1.index t (0 : Fin 2) * 256 + 1 * k.val = k.val by omega)
      | ⟨1, _⟩ => (show win0_1.index t (1 : Fin 2) * 64 + 1 * (j 1).val = (j 1).val by omega)))

/-! ## The twenty blocks fill the output, so the array ends as the product -/

/-- An entry of the output is in point t's block when each coordinate is in the block's range on its axis. -/
theorem mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v15).slice (win0_3.rect t)).set ↔ _
  rw [View.set_slice_whole, Rect.mem_set_unit]
  exact Iff.rfl

/-- Every one of the 20 block rows is some point's. -/
theorem row_point : ∀ b : Fin 20, ∃ t : Fin cfg0.N, win0_3.index t (0 : Fin 2) = b.val :=
  (by decide +kernel : ∀ b : Fin 20, ∃ t : Fin grid0.N, win0_3.index t (0 : Fin 2) = b.val)

/-- Row r of the output lies in the block of the point at block row r / 5000, which is written back. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, q0⟩ := row_point ⟨(i 0).val / 5000, by omega⟩
  have q0' : win0_3.index t (0 : Fin 2) = (i 0).val / 5000 := q0
  obtain ⟨-, -, -, -, -, -, -, e31, -⟩ := block_indices t
  refine ⟨t, Gen.flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the twenty write-backs the output array is the scaled features times the weights, of the arrays the
    region found. -/
theorem transform_final (c : Dev nD) :
    (Gen.dat0 (F := Ideal) V c).arrAt 3 cfg0.N = Cert.Gcn.transform (V c main_arg0) (V c main_v11) (V c main_arg3) :=
  (Gen.dat0 (F := Ideal) V c).arrAt_eq_of_cover 3 (Cert.Gcn.transform (V c main_arg0) (V c main_v11) (V c main_arg3))
    (fun t _ => flushed_eq V c t) covered

end Cert.KernelIdeal.TransformValue

end
-- ==== Proof.NormalizeValue.lean ====
/-
  The affine epilogue of the graph convolution, block by block.

  The second tiled stage walks the 100000 rows of the aggregated features in 20 blocks of 5000 rows. On the block of
  rows 5000·t … 5000·t + 4999 it multiplies each row by that row's scale (a 5000 × 1 column stretched along the 64
  features) and adds the bias (a 1 × 64 row stretched along the 5000 rows). Entry (p, q) of what it stores is therefore
  a (p, q) · s (p, 0) + b (0, q) of the three blocks it was handed. The blocks of the features and of the scale column
  sit over the same rows as the block it writes, and the bias block is the whole bias; so what block t writes is block t
  of ONE whole-array function of the three arrays as the stage finds them, Cert.Gcn.normalize. The 20 blocks tile the
  rows (row r lies in block r / 5000), hence the output array ends holding that function everywhere.
-/
import proofs.«416148_j72619307041223_1_alg».proof.Proof.Gen.KernelIdeal.Frame
import proofs.«416148_j72619307041223_1_alg».proof.Proof.Spec
import proofs.«416148_j72619307041223_1_alg».proof.Proof.LibColumn
import Idealize.ShloMosaic.Lib.Pipeline.Value
import Idealize.ShloMosaic.Lib.ValueIdx

set_option maxRecDepth 16384

noncomputable section

namespace Cert.KernelIdeal.NormalizeValue

open Idealize.ShloMosaic Idealize.ShloMosaic.TcCoe Idealize.SL.Sem Cert.KernelIdeal
open Idealize.ShloMosaic.Pipeline (Dat)
open Idealize.ShloMosaic.ValueIdx

/-! ## One entry of a block's result -/

/-- A 1 × b row stretched along a first axis of extent a reads, at (r, k), the row at (0, k). -/
theorem broadcastTo_1b_ab_apply {α : Type} {a b : ℕ} (v : (⟨2, ![1, b]⟩ : Shape).Idx → α)
    (h : (⟨2, ![1, b]⟩ : Shape).Broadcasts ⟨2, ![a, b]⟩) (r : Fin a) (k : Fin b) :
    broadcastTo ⟨2, ![a, b]⟩ v h (ix2 r k) = v (ix2 (0 : Fin 1) k) := by
  refine broadcastTo_apply v h (ix2 r k) (ix2 (0 : Fin 1) k) fun ax => ?_
  match ax with
  | ⟨0, _⟩ => rfl
  | ⟨1, _⟩ =>
    show k.val = if b = 1 then 0 else k.val
    split
    · have := k.isLt; omega
    · rfl

/-- Entry (p, q) of what the stage stores for a block: the features' entry times the row's scale, plus the bias of the
    feature. -/
theorem block_result_apply (a : Vec Ideal S5000x64 .f32) (s : Vec Ideal S5000x1 .f32) (b : Vec Ideal S1x64 .f32)
    (p : Fin 5000) (q : Fin 64) :
    Gen.k1_pay1 a s b (ix2 p q) = a (ix2 p q) * s (ix2 p (0 : Fin 1)) + b (ix2 (0 : Fin 1) q) := by
  unfold Gen.k1_pay1
  rw [addf_apply, mulf_apply, shapeCast_self, shapeCast_self, shapeCast_self,
    Cert.LibColumn.broadcastTo_a1_ab_apply, broadcastTo_1b_ab_apply]

/-! ## Where the blocks sit -/

/-- The whole-block rectangle starts at zero on both axes. -/
theorem zero_offsets : (![0, 0] : Fin 2 → Nat) = fun _ => 0 := funext fun a => by fin_cases a <;> rfl

/-- The block indices at grid point t, decided over the 20 points: the features, the scale column and the output take
    block t of the rows and the one block of their columns; the bias always its one block. -/
theorem block_indices : ∀ t : Fin cfg1.N,
    win1_3.index t (0 : Fin 2) = t.val ∧ win1_3.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-! ## The input blocks, read in the arrays -/

/-- Entry (p, q) of the features' block at grid point t is the array's entry at row 5000·t + p, feature q. -/
theorem features_block_apply (V : (c : Dev nD) → (b : Ref sig .tc) → Buf (Elt Ideal) ((c : Thread nD τ).loc b)) (c : Dev nD)
    (t : Fin cfg1.N) (p : Fin 5000) (q : Fin 64) (r : Fin 100000) (hr : r.val = t.val * 5000 + p.val) :
    (Gen.iblk1 (F := Ideal) V c 0 t : Vec Ideal S5000x64 .f32) (ix2 p q)
      = (V c main_v19 : FVec Ideal Cert.Gcn.SH .f32) (ix2 r q) := by
  obtain ⟨-, -, e00, e01, -⟩ := block_indices t
  show V c main_v19 (((cfg1.win 0).blk t).view.emb (ix2 p q)) = V c main_v19 (ix2 r q)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * q.val = q.val; omega

/-- Entry (p, 0) of the scale column's block at grid point t is the scale of row 5000·t + p. -/
theorem scale_block_apply (V : (c : Dev nD) → (b : Ref sig .tc) → Buf (Elt Ideal) ((c : Thread nD τ).loc b)) (c : Dev nD)
    (t : Fin cfg1.N) (p : Fin 5000) (r : Fin 100000) (hr : r.val = t.val * 5000 + p.val) :
    (Gen.iblk1 (F := Ideal) V c 1 t : Vec Ideal S5000x1 .f32) (ix2 p (0 : Fin 1))
      = (V c main_v14 : FVec Ideal Cert.Gcn.SCol .f32) (ix2 r (0 : Fin 1)) := by
  obtain ⟨-, -, -, -, e10, e11, -⟩ := block_indices t
  show V c main_v14 (((cfg1.win 1).blk t).view.emb (ix2 p (0 : Fin 1))) = V c main_v14 (ix2 r (0 : Fin 1))
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The bias block at every grid point is the whole bias row. -/
theorem bias_block_apply (V : (c : Dev nD) → (b : Ref sig .tc) → Buf (Elt Ideal) ((c : Thread nD τ).loc b)) (c : Dev nD)
    (t : Fin cfg1.N) (q : Fin 64) :
    (Gen.iblk1 (F := Ideal) V c 2 t : Vec Ideal S1x64 .f32) (ix2 (0 : Fin 1) q)
      = (V c main_v20 : FVec Ideal Cert.Gcn.SB .f32) (ix2 (0 : Fin 1) q) := by
  obtain ⟨-, -, -, -, -, -, e20, e21⟩ := block_indices t
  show V c main_v20 (((cfg1.win 2).blk t).view.emb (ix2 (0 : Fin 1) q)) = V c main_v20 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-! ## What a grid point writes back -/

/-- Grid point t writes back block t of the affine epilogue of the three arrays as the stage finds them: entry (p, q)
    of its result reads the features at row 5000·t + p, that row's scale, and the bias of feature q. -/
theorem normalize_flushed (V : (c : Dev nD) → (b : Ref sig .tc) → Buf (Elt Ideal) ((c : Thread nD τ).loc b)) (c : Dev nD)
    (t : Fin cfg1.N) :
    (Gen.dat1 (F := Ideal) V c).flushed 3 t
      = ((cfg1.win 3).blk t).view.read (Elt Ideal) (Cert.Gcn.normalize (V c main_v19) (V c main_v14) (V c main_v20)) := by
  show (cfg1.win 3).cut (grid1.coords t) ((Gen.dat1 (F := Ideal) V c).after 3 t) = _
  rw [Gen.after1_3]
  unfold Gen.out1_3
  rw [View.canon_unit_zero zero_offsets]
  simp only [View.ld_unit_zero (S := S5000x64) zero_offsets, View.ld_unit_zero (S := S5000x1) zero_offsets,
    View.ld_unit_zero (S := S1x64) zero_offsets]
  obtain ⟨e30, e31, -⟩ := block_indices t
  have ht : t.val < 20 := Nat.lt_of_lt_of_eq t.isLt Gen.N_1
  funext j
  have hj0 : (j 0).val < 5000 := (j 0).isLt
  have hj1 : (j 1).val < 64 := (j 1).isLt
  have hr : t.val * 5000 + (j 0).val < 100000 := by omega
  -- the entry's place in the block, and in the array
  have hy : (cfg1.win 3).xinj (grid1.coords t) j = ix2 (⟨(j 0).val, hj0⟩ : Fin 5000) (⟨(j 1).val, hj1⟩ : Fin 64) := by
    funext a; apply Fin.ext
    match a with
    | ⟨0, _⟩ => rfl
    | ⟨1, _⟩ => rfl
  have hi : ((cfg1.win 3).blk t).view.emb j
      = ix2 (⟨t.val * 5000 + (j 0).val, hr⟩ : Fin 100000) (⟨(j 1).val, hj1⟩ : Fin 64) := by
    funext a; apply Fin.ext
    match a with
    | ⟨0, _⟩ => show win1_3.index t (0 : Fin 2) * 5000 + 1 * (j 0).val = t.val * 5000 + (j 0).val; omega
    | ⟨1, _⟩ => show win1_3.index t (1 : Fin 2) * 64 + 1 * (j 1).val = (j 1).val; omega
  show Gen.k1_pay1 (Gen.iblk1 V c 0 t) (Gen.iblk1 V c 1 t) (Gen.iblk1 V c 2 t) ((cfg1.win 3).xinj (grid1.coords t) j)
      = Cert.Gcn.normalize (V c main_v19) (V c main_v14) (V c main_v20) (((cfg1.win 3).blk t).view.emb j)
  rw [hy, hi]
  refine (block_result_apply _ _ _ _ _).trans ?_
  rw [features_block_apply V c t ⟨(j 0).val, hj0⟩ ⟨(j 1).val, hj1⟩ ⟨t.val * 5000 + (j 0).val, hr⟩ rfl,
    scale_block_apply V c t ⟨(j 0).val, hj0⟩ ⟨t.val * 5000 + (j 0).val, hr⟩ rfl,
    bias_block_apply V c t ⟨(j 1).val, hj1⟩]
  rfl

/-! ## The blocks tile the rows -/

/-- An entry of the output lies in grid point t's block iff each coordinate lies in the block's range on its axis. -/
theorem mem_block (t : Fin cfg1.N) (i : S100000x64.Idx) :
    i ∈ ((cfg1.win 3).blk t).view.set
      ↔ ∀ a : Fin 2, win1_3.index t a * S5000x64.size a ≤ (i a).val
          ∧ (i a).val < win1_3.index t a * S5000x64.size a + S5000x64.size a := by
  show i ∈ ((View.whole main_v21).slice (win1_3.rect t)).set ↔ _
  rw [View.set_slice_whole, Rect.mem_set_unit]
  exact Iff.rfl

/-- Every entry of the output is written by the grid point its row names: row r lies in block r / 5000, and every grid
    point writes its block back. -/
theorem rows_covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := Gen.N_1
  have hq : (i 0).val / 5000 < cfg1.N := by rw [hN]; omega
  obtain ⟨e30, e31, -⟩ := block_indices ⟨(i 0).val / 5000, hq⟩
  have e30' : win1_3.index ⟨(i 0).val / 5000, hq⟩ (0 : Fin 2) = (i 0).val / 5000 := e30
  refine ⟨⟨(i 0).val / 5000, hq⟩, Gen.flush1_3 _, ?_⟩
  rw [mem_block]
  intro a
  match a with
  | ⟨0, _⟩ =>
    show win1_3.index ⟨(i 0).val / 5000, hq⟩ (0 : Fin 2) * 5000 ≤ (i 0).val
      ∧ (i 0).val < win1_3.index ⟨(i 0).val / 5000, hq⟩ (0 : Fin 2) * 5000 + 5000
    omega
  | ⟨1, _⟩ =>
    show win1_3.index ⟨(i 0).val / 5000, hq⟩ (1 : Fin 2) * 64 ≤ (i 1).val
      ∧ (i 1).val < win1_3.index ⟨(i 0).val / 5000, hq⟩ (1 : Fin 2) * 64 + 64
    omega

/-! ## The output array after the stage -/

/-- After its 20 grid points the stage's output array holds the affine epilogue of the aggregated features, the
    in-degree scale column and the bias row as the stage found them: every grid point wrote its block of that one
    function, and the blocks cover every row. -/
theorem normalize_final (V : (c : Dev nD) → (b : Ref sig .tc) → Buf (Elt Ideal) ((c : Thread nD τ).loc b)) (c : Dev nD) :
    (Gen.dat1 (F := Ideal) V c).arrAt 3 cfg1.N
      = Cert.Gcn.normalize (V c main_v19) (V c main_v14) (V c main_v20) :=
  (Gen.dat1 (F := Ideal) V c).arrAt_eq_of_cover 3 _ (fun t _ => normalize_flushed V c t) rows_covered

end Cert.KernelIdeal.NormalizeValue

end
-- ==== Proof.KernelValue.lean ====
/-
  The kernel program's result as one function of its arguments.

  Reading the run backwards from the return: the result array is what the second tiled region leaves, the affine
  epilogue `normalize` of the aggregated features, the destinations' degree column and the bias row; the aggregated
  features are the gathered rows summed into their destinations; the gathered rows are the rows of the first
  region's result at the wrapped source indices, no row masked because every source index is in range; and the
  first region's result is `transform` of the features, the sources' degree column and the weights.
-/
import proofs.«416148_j72619307041223_1_alg».proof.Proof.KernelFolds
import proofs.«416148_j72619307041223_1_alg».proof.Proof.TransformValue
import proofs.«416148_j72619307041223_1_alg».proof.Proof.NormalizeValue

set_option maxRecDepth 16384

noncomputable section

namespace Cert.KernelIdeal.KValue

open Idealize.ShloMosaic Idealize.ShloMosaic.TcCoe Idealize.SL.Sem
open Cert.KernelIdeal Cert.KernelIdeal.Gen Cert.KernelIdeal.Folds Cert.TakeRows Cert.Gcn

/-- The graph convolution as the kernel program computes it, for source indices in range. -/
def result (x : FVec Ideal S100000x256 .f32) (src dst : IVec S1000000 32) (w : FVec Ideal S256x64 .f32)
    (b : FVec Ideal S64 .f32) : FVec Ideal S100000x64 .f32 :=
  normalize
    (aggregate (F := Ideal)
      (Host.gather gather_S100000x64_S1000000x1_S1000000x64_1_0_n_n_0_1_164
        (transform x (degCol (F := Ideal) src) w) (wrapIdx src))
      dst)
    (degCol (F := Ideal) dst)
    (shapeCast S1x64 b shapeCasts_S64_S1x64)

variable (m : (ℓ : Loc nD τ sig) → Buf (Elt Ideal) ℓ) (ρ : Dev nD → PrngReg)

/-- The first region's result array: `transform` of the launch features, the sources' degree column and the weights. -/
theorem dense (c : Dev nD) :
    W6 m ρ c (Proc.devRef .tc main_v15)
      = transform (m ((c : Thread nD τ).loc main_arg0)) (degCol (F := Ideal) (m ((c : Thread nD τ).loc main_arg1)))
          (m ((c : Thread nD τ).loc main_arg3)) := by
  rw [exit0_result, Cert.KernelIdeal.TransformValue.transform_final (V5 m ρ) c]
  show transform (W5 m ρ c (Proc.devRef .tc main_arg0)) (W5 m ρ c (Proc.devRef .tc main_v11)) (W5 m ρ c (Proc.devRef .tc main_arg3)) = _
  rw [entry0_arg m ρ main_arg0 (.inl rfl) c, entry0_arg m ρ main_arg3 (.inr (.inr (.inr (.inl rfl)))) c, entry0_scale m ρ c]

/-- The edges' sources, destinations and the bias are as launched where the later stretches read them. -/
theorem src_at_exit0 (c : Dev nD) : W6 m ρ c (Proc.devRef .tc main_arg1) = m ((c : Thread nD τ).loc main_arg1) :=
  (exit0_kept m ρ main_arg1 (.inl rfl) c).trans (entry0_arg m ρ main_arg1 (.inr (.inl rfl)) c)

theorem dst_between (c : Dev nD) : W7 m ρ c (Proc.devRef .tc main_arg2) = m ((c : Thread nD τ).loc main_arg2) :=
  (between_kept m ρ main_arg2 (.inl rfl) c).trans
    ((exit0_kept m ρ main_arg2 (.inr (.inl rfl)) c).trans (entry0_arg m ρ main_arg2 (.inr (.inr (.inl rfl))) c))

theorem bias_between (c : Dev nD) : W7 m ρ c (Proc.devRef .tc main_arg4) = m ((c : Thread nD τ).loc main_arg4) :=
  (between_kept m ρ main_arg4 (.inr (.inl rfl)) c).trans
    ((exit0_kept m ρ main_arg4 (.inr (.inr (.inl rfl))) c).trans (entry0_arg m ρ main_arg4 (.inr (.inr (.inr (.inr rfl)))) c))

theorem scale_in_at_entry1 (c : Dev nD) :
    W8 m ρ c (Proc.devRef .tc main_v14) = degCol (F := Ideal) (m ((c : Thread nD τ).loc main_arg2)) :=
  (entry1_scale m ρ c).trans ((between_kept m ρ main_v14 (.inr (.inr rfl)) c).trans
    ((exit0_kept m ρ main_v14 (.inr (.inr (.inr rfl))) c).trans (entry0_scale_in m ρ c)))

/-- THE RESULT: for source indices in range the result buffer's last contents are `result` of the launch arguments. -/
theorem final (c : Dev nD)
    (hsrc : ∀ e : Fin 1000000, -100000 ≤ ((m ((c : Thread nD τ).loc main_arg1) : IVec S1000000 32) (ValueIdx.ix1 e)).toInt
      ∧ ((m ((c : Thread nD τ).loc main_arg1) : IVec S1000000 32) (ValueIdx.ix1 e)).toInt < 100000) :
    W9 m ρ c (Proc.devRef .tc main_v21)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [exit1_result, Cert.KernelIdeal.NormalizeValue.normalize_final (V8 m ρ) c]
  show normalize (W8 m ρ c (Proc.devRef .tc main_v19)) (W8 m ρ c (Proc.devRef .tc main_v14)) (W8 m ρ c (Proc.devRef .tc main_v20)) = _
  rw [entry1_agg, entry1_bias, scale_in_at_entry1, between_rows, dst_between, bias_between, src_at_exit0, dense]
  unfold takeRows
  rw [take_rows _ hsrc]
  rfl

end Cert.KernelIdeal.KValue

end
-- ==== Proof.RefValue.lean ====
/-
  The reference program's two dense stages are the specification's functions.

  The reference multiplies the features by the out-degree scale broadcast along the 256 features and takes one
  whole-array matrix product with the weights: entry (r, j) is the sum over k of (x r k · s r) · w k j, which is
  `Cert.Gcn.transform` at the reference's own scale column. Its last three operations multiply the aggregated
  features by the in-degree scale broadcast along the 64 outputs and add the bias broadcast along the nodes:
  entry (r, j) is a r j · s r + b j, which is `Cert.Gcn.normalize`.
-/
import proofs.«416148_j72619307041223_1_alg».proof.Proof.Gen.ReferenceIdeal.Read
import proofs.«416148_j72619307041223_1_alg».proof.Proof.Spec

noncomputable section

open scoped BigOperators

namespace Cert.ReferenceIdeal.RefValue

open Cert.ReferenceIdeal Cert.ReferenceIdeal.Read Idealize.ShloMosaic Idealize.ShloMosaic.ValueIdx Cert.Gcn

/-- The reference's matrix product of the scaled features with the weights is `transform` at its scale column. -/
theorem dense_eq (x0 : (⟨S100000x256, .f32⟩ : BufTy).Contents (Elt Ideal)) (x1 : (⟨S1000000, .i32⟩ : BufTy).Contents (Elt Ideal))
    (x3 : (⟨S256x64, .f32⟩ : BufTy).Contents (Elt Ideal)) :
    val_main_v14 (F := Ideal) x0 x1 x3 = transform x0 (val_main_v11 (F := Ideal) x1) x3 := by
  funext i
  rw [val_main_v14_apply]
  show _ = transformAt x0 (val_main_v11 (F := Ideal) x1) x3 (i 0) (i 1)
  unfold transformAt
  refine Finset.sum_congr rfl fun k _ => ?_
  rw [val_main_v13_apply, val_main_v12_apply]
  have el : lidx_main_v14 i k = ix2 (i 0) k :=
    funext fun a => Fin.ext (by match a with | ⟨0, _⟩ => rfl | ⟨1, _⟩ => rfl)
  have er : ridx_main_v14 i k = ix2 k (i 1) :=
    funext fun a => Fin.ext (by match a with | ⟨0, _⟩ => rfl | ⟨1, _⟩ => rfl)
  have ec : idx_main_v12 (lidx_main_v14 i k) = ix2 (i 0) (0 : Fin 1) :=
    funext fun a => Fin.ext (by match a with | ⟨0, _⟩ => rfl | ⟨1, _⟩ => rfl)
  rw [ec, el, er]
  rfl

/-- The reference's scale, bias and sum over the aggregated features is `normalize`. -/
theorem affine_eq (x0 : (⟨S100000x256, .f32⟩ : BufTy).Contents (Elt Ideal)) (x1 x2 : (⟨S1000000, .i32⟩ : BufTy).Contents (Elt Ideal))
    (x3 : (⟨S256x64, .f32⟩ : BufTy).Contents (Elt Ideal)) (x4 : (⟨S64, .f32⟩ : BufTy).Contents (Elt Ideal)) :
    val_main_v32 (F := Ideal) x0 x1 x2 x3 x4
      = normalize (val_main_v24 (F := Ideal) x0 x1 x2 x3) (val_main_v27 (F := Ideal) x2) (val_main_v30 (F := Ideal) x4) := by
  funext i
  rw [val_main_v32_apply, val_main_v29_apply, val_main_v28_apply, val_main_v31_apply]
  show _ = normalizeAt (val_main_v24 (F := Ideal) x0 x1 x2 x3) (val_main_v27 (F := Ideal) x2) (val_main_v30 (F := Ideal) x4) (i 0) (i 1)
  unfold normalizeAt
  have ec : idx_main_v28 i = ix2 (i 0) (0 : Fin 1) :=
    funext fun a => Fin.ext (by match a with | ⟨0, _⟩ => rfl | ⟨1, _⟩ => rfl)
  have eb : idx_main_v31 i = ix2 (0 : Fin 1) (i 1) :=
    funext fun a => Fin.ext (by match a with | ⟨0, _⟩ => rfl | ⟨1, _⟩ => rfl)
  rw [ec, eb]
  have ea : val_main_v24 (F := Ideal) x0 x1 x2 x3 i = val_main_v24 (F := Ideal) x0 x1 x2 x3 (ix2 (i 0) (i 1)) :=
    congrArg _ (eq_ix2 i)
  rw [ea]
  rfl

end Cert.ReferenceIdeal.RefValue

end
-- ==== Proof.Bridge.lean ====
/-
  The kernel program's result function is the reference's.

  Both programs compute the degree columns by the same host operations (a scatter-add of ones, a clip below at one,
  the power -1/2): the kernel program takes the power of the vector of degrees and lays the result out as a column,
  the reference lays the degrees out as a column first; entry (r, 0) of either is the clipped degree of node r to
  the power -1/2. The kernel program lays the bias out as a 1 × 64 row by a reshape, the reference by a broadcast:
  entry (0, j) of either is bias j. The wrapped source indices, the row gather and the scatter-add into the
  destinations are the same operations in both programs. So the two results are `normalize` of equal arguments.
-/
import proofs.«416148_j72619307041223_1_alg».proof.Proof.KernelValue
import proofs.«416148_j72619307041223_1_alg».proof.Proof.RefValue
import proofs.«416148_j72619307041223_1_alg».proof.Proof.LibColumn
import Idealize.ShloMosaic.Lib.Pipeline.Value

set_option maxRecDepth 16384

noncomputable section

namespace Cert.Bridge

open Idealize.ShloMosaic Idealize.ShloMosaic.ValueIdx
open Cert.KernelIdeal.Folds Cert.KernelIdeal.KValue Cert.ReferenceIdeal.Read Cert.Gcn

/-! ## The two programs' dimension records are the same records -/

theorem scatter_deg_eq : Cert.KernelIdeal.scatter_S100000_S1000000x1_S1000000_n_0_0_1
    = Cert.ReferenceIdeal.scatter_S100000_S1000000x1_S1000000_n_0_0_1 := rfl

theorem scatter_rows_eq : Cert.KernelIdeal.scatter_S100000x64_S1000000x1_S1000000x64_1_0_0_1
    = Cert.ReferenceIdeal.scatter_S100000x64_S1000000x1_S1000000x64_1_0_0_1 := rfl

theorem gather_rows_eq : Cert.KernelIdeal.gather_S100000x64_S1000000x1_S1000000x64_1_0_n_n_0_1_164
    = Cert.ReferenceIdeal.gather_S100000x64_S1000000x1_S1000000x64_1_0_n_n_0_1_164 := rfl

/-! ## The degree columns -/

/-- The clipped degrees are the same host term in both programs. -/
theorem clipped_eq (idx : IVec Cert.KernelIdeal.S1000000 32) :
    (maximumf (broadcastInDim Cert.KernelIdeal.S100000 ![] Cert.KernelIdeal.Facts₀.bcast_S_S100000 (constant Cert.KernelIdeal.S_ .f32 0x3F800000#32))
        (Host.scatterAdd Cert.KernelIdeal.scatter_S100000_S1000000x1_S1000000_n_0_0_1
          (broadcastInDim Cert.KernelIdeal.S100000 ![] Cert.KernelIdeal.Facts₀.bcast_S_S100000 (constant Cert.KernelIdeal.S_ .f32 0x00000000#32))
          (broadcastInDim Cert.KernelIdeal.S1000000x1 ![0] Cert.KernelIdeal.Facts₀.bcast_S1000000_S1000000x1_0 idx)
          (broadcastInDim Cert.KernelIdeal.S1000000 ![] Cert.KernelIdeal.Facts₀.bcast_S_S1000000 (constant Cert.KernelIdeal.S_ .f32 0x3F800000#32)))
      : FVec Ideal Cert.KernelIdeal.S100000 .f32)
    = val_main_v4 (F := Ideal) idx := by
  unfold val_main_v4 val_main_call0_v1 val_main_call0_v0 val_main_cst_1 val_main_v3 val_main_v1 val_main_cst_0 val_main_v2 val_main_v0 val_main_cst
  rw [scatter_deg_eq]
  dsimp only [id]

/-- The degree column: the kernel program's layout of the powers is the reference's power of the laid-out degrees. -/
theorem col_eq (idx : IVec Cert.KernelIdeal.S1000000 32) : degCol (F := Ideal) idx = val_main_v11 (F := Ideal) idx := by
  funext i
  obtain ⟨r, u, rfl⟩ : ∃ (r : Fin 100000) (u : Fin 1), i = ix2 r u := ⟨i 0, i 1, eq_ix2 i⟩
  have hpow : ∀ (a b : FVec Ideal Cert.KernelIdeal.S100000 .f32) (j : Cert.KernelIdeal.S100000.Idx),
      Host.powf a b j = FloatOps.hostPowf (a j) (b j) := fun _ _ _ => rfl
  have e9 : idx_main_v9 (ix2 r u) = ix1 r := funext fun a => Fin.ext (by match a with | ⟨0, _⟩ => rfl)
  have hexp : ∀ j : Cert.KernelIdeal.S100000.Idx,
      (broadcastInDim Cert.KernelIdeal.S100000 ![] Cert.KernelIdeal.Facts₀.bcast_S_S100000
        (constant Cert.KernelIdeal.S_ .f32 0xBF000000#32) : FVec Ideal Cert.KernelIdeal.S100000 .f32) j
      = FloatOps.ofBits .f32 0xBF000000#32 := fun _ => rfl
  unfold degCol
  rw [Cert.LibColumn.shapeCast_a_a1_apply, clipped_eq, hpow, hexp, val_main_v11_apply, val_main_v9_apply, val_main_v10_apply, e9,
    val_main_cst_4_apply]

/-- The reference computes its two degree columns by the same operations. -/
theorem col_in_eq (idx : IVec Cert.KernelIdeal.S1000000 32) : val_main_v27 (F := Ideal) idx = val_main_v11 (F := Ideal) idx := by
  unfold val_main_v27 val_main_v11 val_main_v25 val_main_v9 val_main_v26 val_main_v10 val_main_cst_7 val_main_cst_4 val_main_v8 val_main_v4 val_main_call1_v1 val_main_call0_v1 val_main_call1_v0 val_main_call0_v0 val_main_cst_3 val_main_cst_1 val_main_v7 val_main_v3 val_main_v5 val_main_v1 val_main_cst_2 val_main_cst_0 val_main_v6 val_main_v2
  with_reducible rfl

/-! ## The bias row -/

/-- The bias as a row: a reshape of the 64 entries, or a broadcast of them along a unit axis. -/
theorem bias_eq (b : FVec Ideal Cert.KernelIdeal.S64 .f32) :
    shapeCast Cert.KernelIdeal.S1x64 b Cert.KernelIdeal.Facts₀.shapeCasts_S64_S1x64 = val_main_v30 (F := Ideal) b := by
  funext i
  obtain ⟨u, j, rfl⟩ : ∃ (u : Fin 1) (j : Fin 64), i = ix2 u j := ⟨i 0, i 1, eq_ix2 i⟩
  rw [val_main_v30_apply]
  have e30 : idx_main_v30 (ix2 u j) = ix1 j := funext fun a => Fin.ext (by match a with | ⟨0, _⟩ => rfl)
  rw [e30]
  exact shapeCast_apply b _ _ _ (by
    have hu : u.val = 0 := by omega
    rw [Shape.rowMajor_val_two, Shape.rowMajor_val_one]
    show j.val = u.val * 64 + j.val
    rw [hu, Nat.zero_mul, Nat.zero_add])

/-! ## The gather and the scatter-add -/

/-- The gather at the wrapped sources and the scatter-add into the destinations are the same operations. -/
theorem aggregate_eq (h : FVec Ideal Cert.KernelIdeal.S100000x64 .f32) (src dst : IVec Cert.KernelIdeal.S1000000 32) :
    aggregate (F := Ideal)
      (Host.gather Cert.KernelIdeal.gather_S100000x64_S1000000x1_S1000000x64_1_0_n_n_0_1_164 h (Cert.TakeRows.wrapIdx src)) dst
    = Host.scatterAdd Cert.ReferenceIdeal.scatter_S100000x64_S1000000x1_S1000000x64_1_0_0_1 (val_main_v22 (F := Ideal)) (val_main_v23 (F := Ideal) dst)
        (Host.gather Cert.ReferenceIdeal.gather_S100000x64_S1000000x1_S1000000x64_1_0_n_n_0_1_164 h (val_main_v20 (F := Ideal) src)) := by
  unfold aggregate Cert.TakeRows.wrapIdx val_main_v22 val_main_cst_6 val_main_v23 val_main_v20 val_main_v19 val_main_v16 val_main_v18 val_main_v15 val_main_v17 val_main_c val_main_c_5
  rw [scatter_rows_eq, gather_rows_eq]

/-! ## The results -/

/-- THE TWO RESULTS ARE ONE FUNCTION of the arguments. -/
theorem result_eq (x : FVec Ideal Cert.KernelIdeal.S100000x256 .f32) (src dst : IVec Cert.KernelIdeal.S1000000 32)
    (w : FVec Ideal Cert.KernelIdeal.S256x64 .f32) (b : FVec Ideal Cert.KernelIdeal.S64 .f32) :
    result x src dst w b = val_main_v32 (F := Ideal) x src dst w b := by
  rw [Cert.ReferenceIdeal.RefValue.affine_eq]
  unfold result
  rw [aggregate_eq, col_eq src, col_eq dst, bias_eq b, ← Cert.ReferenceIdeal.RefValue.dense_eq x src w, col_in_eq dst]
  unfold val_main_v24 val_main_v21
  rfl

end Cert.Bridge

end
-- ==== Proof.lean ====
/-
  The certificate of a two-stage graph convolution against its whole-array reference, over the extended reals.

  The kernel program computes h = (x · s_out) W by a tiled matrix product (20 blocks of 5000 nodes), gathers the rows
  of h at the edges' sources, sums them into the edges' destinations, and finishes with the tiled affine epilogue
  agg · s_in + b; the degree columns s_out, s_in (degree clipped below at one, to the power -1/2) and the gather and
  scatter-add are host operations. The reference does the same with one whole-array product and whole-array
  broadcasts. The precondition keeps the float inputs finite and every source index inside the range of the node
  axis it indexes (after the wrap of negative indices both programs apply), where the kernel program's masked
  gather never masks and is the reference's gather.
  The three frames are the programs' runs; nothing was rewritten in the idealization, so it is preserved trivially;
  the two results are one function of the arguments: the tiled products and epilogue are the whole-array ones
  entry by entry (the same sum over the same 256 features, no law of the extended reals needed), and the host
  operations around them are the same.
-/
import proofs.«416148_j72619307041223_1_alg».proof.Defs
import proofs.«416148_j72619307041223_1_alg».proof.Proof.Gen.Kernel
import proofs.«416148_j72619307041223_1_alg».proof.Proof.Gen.Kernel.Skeleton
import proofs.«416148_j72619307041223_1_alg».proof.Proof.Gen.Kernel.Launch
import proofs.«416148_j72619307041223_1_alg».proof.Proof.Gen.Kernel.Points
import proofs.«416148_j72619307041223_1_alg».proof.Proof.Gen.Kernel.Frame
import proofs.«416148_j72619307041223_1_alg».proof.Proof.Gen.KernelIdeal
import proofs.«416148_j72619307041223_1_alg».proof.Proof.Gen.KernelIdeal.Skeleton
import proofs.«416148_j72619307041223_1_alg».proof.Proof.Gen.KernelIdeal.Launch
import proofs.«416148_j72619307041223_1_alg».proof.Proof.Gen.KernelIdeal.Points
import proofs.«416148_j72619307041223_1_alg».proof.Proof.Gen.KernelIdeal.Frame
import proofs.«416148_j72619307041223_1_alg».proof.Proof.Gen.ReferenceIdeal
import proofs.«416148_j72619307041223_1_alg».proof.Proof.Gen.ReferenceIdeal.Run
import proofs.«416148_j72619307041223_1_alg».proof.Proof.Gen.ReferenceIdeal.Read
import proofs.«416148_j72619307041223_1_alg».proof.Proof.Gen.Pre_finite_inputs
import proofs.«416148_j72619307041223_1_alg».proof.Proof.KernelRun
import proofs.«416148_j72619307041223_1_alg».proof.Proof.KernelValue
import proofs.«416148_j72619307041223_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the graph convolution of the arguments: the kernel program's run names its result buffer
    at the last boundary's contents, which is `KValue.result` of the launch arguments for source indices in range
    (read out of the precondition), and the reference's run ends at its last stage, the same function. -/
theorem algebraic : Cert.algebraic_KernelIdeal_ReferenceIdeal := by
  intro m ρ m' ρ' hpre hagree
  refine ⟨fun c => Cert.KernelIdeal.KValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KValue.final m ρ c (Cert.TakeRows.src_in_range _ _ _ _ _ (hpre c))), (h c).2⟩)
      (Cert.KernelIdeal.NamedRun.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v32_eq, (hagree c).1, (hagree c).2.1, (hagree c).2.2.1, (hagree c).2.2.2.1, (hagree c).2.2.2.2]
    exact (Cert.Bridge.result_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
